-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S256x256x9 : Shape := ⟨3, ![256, 256, 9]⟩
abbrev S256x256 : Shape := ⟨2, ![256, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x256x9 : S_.BroadcastsInDim S256x256x9 (![] : Fin 0 → Fin S256x256x9.rank)
  reducesTo_S256x256x9_S_d0_1_2 : S256x256x9.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S32768x256 .f32) (main_arg1 : FVec F S256x256x9 .f32) (main_arg2 : FVec F S256x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S256x256x9 .f32 := Host.absf main_arg1
  let main_cst_0 : FVec F S_ .f32 := constant S_ .f32 0x7F800000#32
  let main_v5 : FVec F S256x256x9 .f32 := broadcastInDim S256x256x9 ![] bcast_S_S256x256x9 main_cst_0
  let main_v6 : IVec S256x256x9 1 := cmpf .olt main_v4 main_v5
  let main_c_1 : IVec S_ 1 := constantI S_ 1 1#1
  let main_v7 : IVec S_ 1 := (fun x v => Host.reduce IntOp.andi x v reducesTo_S256x256x9_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S32768x256 : Shape := ⟨2, ![32768, 256]⟩
abbrev S256x256x9 : Shape := ⟨3, ![256, 256, 9]⟩
abbrev S256x256 : Shape := ⟨2, ![256, 256]⟩
abbrev S256x256x1 : Shape := ⟨3, ![256, 256, 1]⟩
abbrev S9x256x256 : Shape := ⟨3, ![9, 256, 256]⟩
abbrev S2048x256 : Shape := ⟨2, ![2048, 256]⟩
abbrev S1x256x256 : Shape := ⟨3, ![1, 256, 256]⟩

abbrev nBuf : Space → Nat
  | .hbm => 9
  | .vmem => 5
  | .smem => 0
  | _ => 0

abbrev bufTy : (tb : Table) → Fin (tcTables nBuf tb) → BufTy
  | .hbm, ⟨0, _⟩ => ⟨S32768x256, .f32⟩
  | .hbm, ⟨1, _⟩ => ⟨S256x256x9, .f32⟩
  | .hbm, ⟨2, _⟩ => ⟨S256x256, .f32⟩
  | .hbm, ⟨3, _⟩ => ⟨S256x256x1, .f32⟩
  | .hbm, ⟨4, _⟩ => ⟨S256x256x9, .f32⟩
  | .hbm, ⟨5, _⟩ => ⟨S256x256x9, .f32⟩
  | .hbm, ⟨6, _⟩ => ⟨S9x256x256, .f32⟩
  | .hbm, ⟨7, _⟩ => ⟨S9x256x256, .bf16⟩
  | .hbm, ⟨8, _⟩ => ⟨S32768x256, .f32⟩
  | .local _ .vmem, ⟨0, _⟩ => ⟨S2048x256, .f32⟩
  | .local _ .vmem, ⟨1, _⟩ => ⟨S2048x256, .f32⟩
  | .local _ .vmem, ⟨2, _⟩ => ⟨S9x256x256, .bf16⟩
  | .local _ .vmem, ⟨3, _⟩ => ⟨S2048x256, .f32⟩
  | .local _ .vmem, ⟨4, _⟩ => ⟨S2048x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S256x256_S256x256x1_0_1 : S256x256.BroadcastsInDim S256x256x1 (![0, 1] : Fin 2 → Fin S256x256x1.rank)
  bcast_S256x256x1_S256x256x9_0_1_2 : S256x256x1.BroadcastsInDim S256x256x9 (![0, 1, 2] : Fin 3 → Fin S256x256x9.rank)
  transposes_S256x256x9_S9x256x256_2_1_0 : S256x256x9.Transposes [2, 1, 0] S9x256x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  inb_S9x256x256_S1x256x256_1_0_0 : ∀ a, (![1, 0, 0] : Fin 3 → Nat) a + S1x256x256.size a ≤ S9x256x256.size a
  inb_S9x256x256_S1x256x256_2_0_0 : ∀ a, (![2, 0, 0] : Fin 3 → Nat) a + S1x256x256.size a ≤ S9x256x256.size a
  inb_S9x256x256_S1x256x256_3_0_0 : ∀ a, (![3, 0, 0] : Fin 3 → Nat) a + S1x256x256.size a ≤ S9x256x256.size a
  inb_S9x256x256_S1x256x256_4_0_0 : ∀ a, (![4, 0, 0] : Fin 3 → Nat) a + S1x256x256.size a ≤ S9x256x256.size a
  inb_S9x256x256_S1x256x256_5_0_0 : ∀ a, (![5, 0, 0] : Fin 3 → Nat) a + S1x256x256.size a ≤ S9x256x256.size a
  inb_S9x256x256_S1x256x256_6_0_0 : ∀ a, (![6, 0, 0] : Fin 3 → Nat) a + S1x256x256.size a ≤ S9x256x256.size a
  inb_S9x256x256_S1x256x256_7_0_0 : ∀ a, (![7, 0, 0] : Fin 3 → Nat) a + S1x256x256.size a ≤ S9x256x256.size a
  inb_S9x256x256_S1x256x256_8_0_0 : ∀ a, (![8, 0, 0] : Fin 3 → Nat) a + S1x256x256.size a ≤ S9x256x256.size a
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x256x256.size a ≤ S9x256x256.size a
  hwx0_1 : ∀ i : grid0.Coords, EltTy.bits .bf16 = 32 ∨ (Rect.block (s := S9x256x256) S9x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S9x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x256 : Shape := ⟨2, ![32768, 256]⟩
abbrev S256x256x9 : Shape := ⟨3, ![256, 256, 9]⟩
abbrev S256x256 : Shape := ⟨2, ![256, 256]⟩
abbrev S_ : Shape := ⟨0, ![]⟩
abbrev S32768x256x1 : Shape := ⟨3, ![32768, 256, 1]⟩
abbrev S32768x256x9 : Shape := ⟨3, ![32768, 256, 9]⟩
abbrev S32768x2304 : Shape := ⟨2, ![32768, 2304]⟩
abbrev S256x256x1 : Shape := ⟨3, ![256, 256, 1]⟩
abbrev S256x2304 : Shape := ⟨2, ![256, 2304]⟩
abbrev S2304x256 : Shape := ⟨2, ![2304, 256]⟩

abbrev nBuf : Space → Nat
  | .hbm => 58
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x256x9, .f32⟩
  | .hbm, ⟨2, _⟩ => ⟨S256x256, .f32⟩
  | .hbm, ⟨3, _⟩ => ⟨S32768x256, .f32⟩
  | .hbm, ⟨4, _⟩ => ⟨S_, .f32⟩
  | .hbm, ⟨5, _⟩ => ⟨S32768x256, .f32⟩
  | .hbm, ⟨6, _⟩ => ⟨S_, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S_, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S_, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256x1, .f32⟩
  | .hbm, ⟨42, _⟩ => ⟨S32768x256x1, .f32⟩
  | .hbm, ⟨43, _⟩ => ⟨S32768x256x1, .f32⟩
  | .hbm, ⟨44, _⟩ => ⟨S32768x256x1, .f32⟩
  | .hbm, ⟨45, _⟩ => ⟨S32768x256x1, .f32⟩
  | .hbm, ⟨46, _⟩ => ⟨S32768x256x1, .f32⟩
  | .hbm, ⟨47, _⟩ => ⟨S32768x256x1, .f32⟩
  | .hbm, ⟨48, _⟩ => ⟨S32768x256x1, .f32⟩
  | .hbm, ⟨49, _⟩ => ⟨S32768x256x1, .f32⟩
  | .hbm, ⟨50, _⟩ => ⟨S32768x256x9, .f32⟩
  | .hbm, ⟨51, _⟩ => ⟨S32768x2304, .f32⟩
  | .hbm, ⟨52, _⟩ => ⟨S256x256x1, .f32⟩
  | .hbm, ⟨53, _⟩ => ⟨S256x256x9, .f32⟩
  | .hbm, ⟨54, _⟩ => ⟨S256x256x9, .f32⟩
  | .hbm, ⟨55, _⟩ => ⟨S256x2304, .f32⟩
  | .hbm, ⟨56, _⟩ => ⟨S2304x256, .f32⟩
  | .hbm, ⟨57, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  bcast_S32768x256_S32768x256x1_0_1 : S32768x256.BroadcastsInDim S32768x256x1 (![0, 1] : Fin 2 → Fin S32768x256x1.rank)
  concatenates_S32768x256x1_S32768x256x1_S32768x256x1_S32768x256x1_S32768x256x1_S32768x256x1_S32768x256x1_S32768x256x1_S32768x256x1_S32768x256x9_d2 : Shape.Concatenates [S32768x256x1, S32768x256x1, S32768x256x1, S32768x256x1, S32768x256x1, S32768x256x1, S32768x256x1, S32768x256x1, S32768x256x1] S32768x256x9 2
  shapeCasts_S32768x256x9_S32768x2304 : S32768x256x9.ShapeCasts S32768x2304
  bcast_S256x256_S256x256x1_0_1 : S256x256.BroadcastsInDim S256x256x1 (![0, 1] : Fin 2 → Fin S256x256x1.rank)
  bcast_S256x256x1_S256x256x9_0_1_2 : S256x256x1.BroadcastsInDim S256x256x9 (![0, 1, 2] : Fin 3 → Fin S256x256x9.rank)
  shapeCasts_S256x256x9_S256x2304 : S256x256x9.ShapeCasts S256x2304
  transposes_S256x2304_S2304x256_1_0 : S256x2304.Transposes [1, 0] S2304x256
  dot_S32768x2304_S2304x256_S32768x256_1_0_0_1_n_n_wf : DotDims.WF S32768x2304 S2304x256 S32768x256 [1] [0] [0] [1] [] []

variable [Facts₀]

def dot_S32768x2304_S2304x256_S32768x256_1_0_0_1_n_n : DotDims S32768x2304 S2304x256 S32768x256 where
  lhsContracting := [1]
  rhsContracting := [0]
  lhsNonContracting := [0]
  rhsNonContracting := [1]
  lhsBatch := []
  rhsBatch := []
  wf := dot_S32768x2304_S2304x256_S32768x256_1_0_0_1_n_n_wf

class Facts : Prop extends Facts₀ where

variable [Facts]
-- ==== Proof.ChebSpec.lean ====
/-
  The function both programs compute, and the one law that joins their two arrangements of it.

  With t = tanh x, the Chebyshev polynomials of t are built by the three-term recurrence
  T₀ = 1, T₁ = t, T_k = (2·t)·T_{k-1} − T_{k-2} (k = 2 … 8), every operation the extended reals' own.
  The result at batch row b and output column o is

      ∑ k < 9, ∑ i < 256,  T_k (tanh x[b, i]) · (c_basis[o, i, k] · c_act[o, i]).

  One program takes this sum degree by degree (nine contractions over i, added up); the other flattens the pair
  (i, k) to the single position i·9 + k and contracts once over all 2304 positions. The two agree because a finite
  sum in a commutative monoid may be re-indexed along a bijection and its two summations exchanged: nothing is
  cancelled or distributed, so no finiteness of the inputs is needed.
-/
import Idealize.ShloMosaic.PureOps.Ideal
import Idealize.ShloMosaic.Lib.ValueIdx
import Mathlib.Algebra.BigOperators.Fin

noncomputable section

open scoped BigOperators

namespace Cert.Cheb

open Idealize.ShloMosaic Idealize.ShloMosaic.ValueIdx

/-! ## The recurrence -/

/-- The word both programs write for the constant one … -/
abbrev one : EReal := Ideal.ofBits .f32 0x3F800000#32
/-- … and for the constant two. -/
abbrev two : EReal := Ideal.ofBits .f32 0x40000000#32

/-- T₂ = (2·t)·t − 1. -/
def T2 (t : EReal) : EReal := two * t * t - one
/-- T₃ = (2·t)·T₂ − t. -/
def T3 (t : EReal) : EReal := two * t * T2 t - t
/-- T₄ = (2·t)·T₃ − T₂. -/
def T4 (t : EReal) : EReal := two * t * T3 t - T2 t
/-- T₅ = (2·t)·T₄ − T₃. -/
def T5 (t : EReal) : EReal := two * t * T4 t - T3 t
/-- T₆ = (2·t)·T₅ − T₄. -/
def T6 (t : EReal) : EReal := two * t * T5 t - T4 t
/-- T₇ = (2·t)·T₆ − T₅. -/
def T7 (t : EReal) : EReal := two * t * T6 t - T5 t
/-- T₈ = (2·t)·T₇ − T₆. -/
def T8 (t : EReal) : EReal := two * t * T7 t - T6 t

/-- The polynomial of degree `k` at `t`, for the nine degrees the programs use. -/
def cheb (k : Fin 9) (t : EReal) : EReal :=
  match k with
  | ⟨0, _⟩ => one
  | ⟨1, _⟩ => t
  | ⟨2, _⟩ => T2 t
  | ⟨3, _⟩ => T3 t
  | ⟨4, _⟩ => T4 t
  | ⟨5, _⟩ => T5 t
  | ⟨6, _⟩ => T6 t
  | ⟨7, _⟩ => T7 t
  | ⟨8, _⟩ => T8 t

/-! ## The result, index by index -/

/-- The result over a batch of rows `x` and a weight slab `w[k, i, o]` already laid out degree-major: at (b, o) the
    sum over the degrees and over the input features of T_k (tanh x[b, i]) · w[k, i, o]. -/
def resultOfSlab {B : Nat} (x : (⟨2, ![B, 256]⟩ : Shape).Idx → EReal) (w : (⟨3, ![9, 256, 256]⟩ : Shape).Idx → EReal) :
    (⟨2, ![B, 256]⟩ : Shape).Idx → EReal :=
  fun j => ∑ k : Fin 9, ∑ i : Fin 256, cheb k (Ideal.tanh (x (ix2 (j 0) i))) * w (ix3 k i (j 1))

/-- The result as a function of the three arguments: the slab is c_basis[o, i, k] · c_act[o, i]. -/
def result (x : (⟨2, ![32768, 256]⟩ : Shape).Idx → EReal) (cb : (⟨3, ![256, 256, 9]⟩ : Shape).Idx → EReal)
    (ca : (⟨2, ![256, 256]⟩ : Shape).Idx → EReal) : (⟨2, ![32768, 256]⟩ : Shape).Idx → EReal :=
  fun j => ∑ k : Fin 9, ∑ i : Fin 256,
    cheb k (Ideal.tanh (x (ix2 (j 0) i))) * (cb (ix3 (j 1) i k) * ca (ix2 (j 1) i))

/-- The two forms agree when the slab holds those products. -/
theorem resultOfSlab_eq_result (x : (⟨2, ![32768, 256]⟩ : Shape).Idx → EReal) (w : (⟨3, ![9, 256, 256]⟩ : Shape).Idx → EReal)
    (cb : (⟨3, ![256, 256, 9]⟩ : Shape).Idx → EReal) (ca : (⟨2, ![256, 256]⟩ : Shape).Idx → EReal)
    (hw : ∀ (k : Fin 9) (i o : Fin 256), w (ix3 k i o) = cb (ix3 o i k) * ca (ix2 o i)) :
    resultOfSlab x w = result x cb ca := by
  funext j
  unfold resultOfSlab result
  exact Finset.sum_congr rfl fun k _ => Finset.sum_congr rfl fun i _ =>
    congrArg (cheb k (Ideal.tanh (x (ix2 (j 0) i))) * ·) (hw k i (j 1))

/-! ## Sums over nine degrees and over 2304 flattened positions -/

/-- A sum over the nine degrees written out, grouped to the left as an accumulator adds them. -/
theorem sum_nine {M : Type*} [AddCommMonoid M] (f : Fin 9 → M) :
    ∑ k, f k = f 0 + f 1 + f 2 + f 3 + f 4 + f 5 + f 6 + f 7 + f 8 := by
  rw [Fin.sum_univ_castSucc, Fin.sum_univ_eight]
  rfl

/-- Position i·9 + k of the flattened axis is the pair (feature i, degree k). -/
def flatEquiv : Fin 256 × Fin 9 ≃ Fin 2304 where
  toFun p := ⟨p.1.val * 9 + p.2.val, by have := p.1.isLt; have := p.2.isLt; omega⟩
  invFun j := (⟨j.val / 9, by have := j.isLt; omega⟩, ⟨j.val % 9, by omega⟩)
  left_inv p := by
    have h1 := p.1.isLt; have h2 := p.2.isLt
    refine Prod.ext (Fin.ext ?_) (Fin.ext ?_)
    · show (p.1.val * 9 + p.2.val) / 9 = p.1.val; omega
    · show (p.1.val * 9 + p.2.val) % 9 = p.2.val; omega
  right_inv j := by
    refine Fin.ext ?_
    show j.val / 9 * 9 + j.val % 9 = j.val; omega

/-- A sum over the 2304 flattened positions is the sum over the degrees of the sums over the features. -/
theorem sum_flat {M : Type*} [AddCommMonoid M] (g : Fin 2304 → M) :
    ∑ j, g j = ∑ k : Fin 9, ∑ i : Fin 256, g (flatEquiv (i, k)) := by
  rw [← flatEquiv.sum_comp g, Fintype.sum_prod_type, Finset.sum_comm]

end Cert.Cheb

end
-- ==== Proof.ChebReference.lean ====
/-
  The reference program computes `Cheb.result`.

  Its last operation contracts the 2304 flattened positions of two reshaped arrays. Position i·9 + k of the left one
  is entry (b, i, k) of the nine polynomial arrays stacked along a new last axis, which is T_k (tanh x[b, i]); the
  same position of the right one is c_basis[o, i, k] · c_act[o, i]. Re-indexing the contraction by the pair (i, k)
  and exchanging the two sums gives the degree-major form.
-/
import proofs.«129841_j7404523619230_1_alg».proof.Proof.Gen.ReferenceIdeal.Read
import proofs.«129841_j7404523619230_1_alg».proof.Proof.ChebSpec

noncomputable section

open scoped BigOperators

namespace Cert.Cheb.Reference

open Cert.ReferenceIdeal Cert.ReferenceIdeal.Read Cert.Cheb Idealize.ShloMosaic Idealize.ShloMosaic.ValueIdx

/-! ## The polynomial arrays, entry by entry -/

section Degrees
variable (x0 : (⟨S32768x256, .f32⟩ : BufTy).Contents (Elt Ideal)) (i : S32768x256.Idx)

theorem tanh_at : val_main_v0 (F := Ideal) x0 i = Ideal.tanh (x0 i) := rfl
theorem deg0_at : val_main_v1 (F := Ideal) i = one := rfl
theorem deg2_at : val_main_v5 (F := Ideal) x0 i = T2 (Ideal.tanh (x0 i)) := rfl
theorem deg3_at : val_main_v9 (F := Ideal) x0 i = T3 (Ideal.tanh (x0 i)) := rfl
theorem deg4_at : val_main_v13 (F := Ideal) x0 i = T4 (Ideal.tanh (x0 i)) := rfl
theorem deg5_at : val_main_v17 (F := Ideal) x0 i = T5 (Ideal.tanh (x0 i)) := rfl
theorem deg6_at : val_main_v21 (F := Ideal) x0 i = T6 (Ideal.tanh (x0 i)) := rfl
theorem deg7_at : val_main_v25 (F := Ideal) x0 i = T7 (Ideal.tanh (x0 i)) := rfl
theorem deg8_at : val_main_v29 (F := Ideal) x0 i = T8 (Ideal.tanh (x0 i)) := rfl

end Degrees

/-! ## The nine arrays stacked along a new last axis -/

/-- Off the stacking axis an entry of a piece and the entry of the stack it lands on have the same coordinates. -/
theorem off_axis (b : Fin 32768) (i : Fin 256) (k : Fin 9) :
    ∀ a : Fin S32768x256x1.rank, a.cast (rfl : S32768x256x1.rank = S32768x256x9.rank) ≠ (2 : Fin 3) →
      ((ix3 b i (0 : Fin 1) : S32768x256x1.Idx) a).val = ((ix3 b i k : S32768x256x9.Idx) (a.cast rfl)).val
  | ⟨0, _⟩, _ => rfl
  | ⟨1, _⟩, _ => rfl
  | ⟨2, _⟩, h => absurd rfl h

/-- The nine pieces as the list a concatenation takes. -/
abbrev pieces {α : Type} (f0 f1 f2 f3 f4 f5 f6 f7 f8 : S32768x256x1.Idx → α) : List ((s : Shape) × (s.Idx → α)) :=
  [⟨S32768x256x1, f0⟩, ⟨S32768x256x1, f1⟩, ⟨S32768x256x1, f2⟩, ⟨S32768x256x1, f3⟩, ⟨S32768x256x1, f4⟩, ⟨S32768x256x1, f5⟩, ⟨S32768x256x1, f6⟩, ⟨S32768x256x1, f7⟩, ⟨S32768x256x1, f8⟩]

/-- Nine pieces of unit extent joined along the last axis: entry (b, i, k) of the stack is entry (b, i, 0) of piece k. -/
theorem stack_apply {α : Type} (f0 f1 f2 f3 f4 f5 f6 f7 f8 : S32768x256x1.Idx → α)
    (h : Shape.Concatenates [S32768x256x1, S32768x256x1, S32768x256x1, S32768x256x1, S32768x256x1, S32768x256x1, S32768x256x1, S32768x256x1, S32768x256x1] S32768x256x9 2)
    (b : Fin 32768) (i : Fin 256) (k : Fin 9) :
    concatenate S32768x256x9 2 (pieces f0 f1 f2 f3 f4 f5 f6 f7 f8) h (ix3 b i k)
      = (match k with
          | ⟨0, _⟩ => f0 | ⟨1, _⟩ => f1 | ⟨2, _⟩ => f2 | ⟨3, _⟩ => f3 | ⟨4, _⟩ => f4
          | ⟨5, _⟩ => f5 | ⟨6, _⟩ => f6 | ⟨7, _⟩ => f7 | ⟨8, _⟩ => f8) (ix3 b i 0) := by
  match k with
  | ⟨0, hk⟩ => exact concatenate_apply_piece (t := S32768x256x9) (2 : Fin 3) (pieces f0 f1 f2 f3 f4 f5 f6 f7 f8) h (ix3 b i ⟨0, hk⟩) 0 (show 0 < 9 by omega) S32768x256x1 f0 rfl rfl 0 rfl (ix3 b i 0) (off_axis b i ⟨0, hk⟩) rfl
  | ⟨1, hk⟩ => exact concatenate_apply_piece (t := S32768x256x9) (2 : Fin 3) (pieces f0 f1 f2 f3 f4 f5 f6 f7 f8) h (ix3 b i ⟨1, hk⟩) 1 (show 1 < 9 by omega) S32768x256x1 f1 rfl rfl 1 rfl (ix3 b i 0) (off_axis b i ⟨1, hk⟩) rfl
  | ⟨2, hk⟩ => exact concatenate_apply_piece (t := S32768x256x9) (2 : Fin 3) (pieces f0 f1 f2 f3 f4 f5 f6 f7 f8) h (ix3 b i ⟨2, hk⟩) 2 (show 2 < 9 by omega) S32768x256x1 f2 rfl rfl 2 rfl (ix3 b i 0) (off_axis b i ⟨2, hk⟩) rfl
  | ⟨3, hk⟩ => exact concatenate_apply_piece (t := S32768x256x9) (2 : Fin 3) (pieces f0 f1 f2 f3 f4 f5 f6 f7 f8) h (ix3 b i ⟨3, hk⟩) 3 (show 3 < 9 by omega) S32768x256x1 f3 rfl rfl 3 rfl (ix3 b i 0) (off_axis b i ⟨3, hk⟩) rfl
  | ⟨4, hk⟩ => exact concatenate_apply_piece (t := S32768x256x9) (2 : Fin 3) (pieces f0 f1 f2 f3 f4 f5 f6 f7 f8) h (ix3 b i ⟨4, hk⟩) 4 (show 4 < 9 by omega) S32768x256x1 f4 rfl rfl 4 rfl (ix3 b i 0) (off_axis b i ⟨4, hk⟩) rfl
  | ⟨5, hk⟩ => exact concatenate_apply_piece (t := S32768x256x9) (2 : Fin 3) (pieces f0 f1 f2 f3 f4 f5 f6 f7 f8) h (ix3 b i ⟨5, hk⟩) 5 (show 5 < 9 by omega) S32768x256x1 f5 rfl rfl 5 rfl (ix3 b i 0) (off_axis b i ⟨5, hk⟩) rfl
  | ⟨6, hk⟩ => exact concatenate_apply_piece (t := S32768x256x9) (2 : Fin 3) (pieces f0 f1 f2 f3 f4 f5 f6 f7 f8) h (ix3 b i ⟨6, hk⟩) 6 (show 6 < 9 by omega) S32768x256x1 f6 rfl rfl 6 rfl (ix3 b i 0) (off_axis b i ⟨6, hk⟩) rfl
  | ⟨7, hk⟩ => exact concatenate_apply_piece (t := S32768x256x9) (2 : Fin 3) (pieces f0 f1 f2 f3 f4 f5 f6 f7 f8) h (ix3 b i ⟨7, hk⟩) 7 (show 7 < 9 by omega) S32768x256x1 f7 rfl rfl 7 rfl (ix3 b i 0) (off_axis b i ⟨7, hk⟩) rfl
  | ⟨8, hk⟩ => exact concatenate_apply_piece (t := S32768x256x9) (2 : Fin 3) (pieces f0 f1 f2 f3 f4 f5 f6 f7 f8) h (ix3 b i ⟨8, hk⟩) 8 (show 8 < 9 by omega) S32768x256x1 f8 rfl rfl 8 rfl (ix3 b i 0) (off_axis b i ⟨8, hk⟩) rfl

/-- Entry (b, i, k) of the stacked array is the polynomial of degree k at tanh x[b, i]. -/
theorem stacked_at (x0 : (⟨S32768x256, .f32⟩ : BufTy).Contents (Elt Ideal)) (b : Fin 32768) (i : Fin 256) (k : Fin 9) :
    val_main_v39 (F := Ideal) x0 (ix3 b i k) = cheb k (Ideal.tanh (x0 (ix2 b i))) := by
  unfold val_main_v39
  refine (stack_apply _ _ _ _ _ _ _ _ _ _ b i k).trans ?_
  match k with
  | ⟨0, _⟩ =>
    have e : idx_main_v30 (ix3 b i (0 : Fin 1)) = ix2 b i := funext fun a => by match a with | ⟨0, _⟩ => rfl | ⟨1, _⟩ => rfl
    exact ((val_main_v30_apply (ix3 b i 0)).trans (by rw [e])).trans (deg0_at (ix2 b i))
  | ⟨1, _⟩ =>
    have e : idx_main_v31 (ix3 b i (0 : Fin 1)) = ix2 b i := funext fun a => by match a with | ⟨0, _⟩ => rfl | ⟨1, _⟩ => rfl
    exact ((val_main_v31_apply x0 (ix3 b i 0)).trans (by rw [e])).trans (tanh_at x0 (ix2 b i))
  | ⟨2, _⟩ =>
    have e : idx_main_v32 (ix3 b i (0 : Fin 1)) = ix2 b i := funext fun a => by match a with | ⟨0, _⟩ => rfl | ⟨1, _⟩ => rfl
    exact ((val_main_v32_apply x0 (ix3 b i 0)).trans (by rw [e])).trans (deg2_at x0 (ix2 b i))
  | ⟨3, _⟩ =>
    have e : idx_main_v33 (ix3 b i (0 : Fin 1)) = ix2 b i := funext fun a => by match a with | ⟨0, _⟩ => rfl | ⟨1, _⟩ => rfl
    exact ((val_main_v33_apply x0 (ix3 b i 0)).trans (by rw [e])).trans (deg3_at x0 (ix2 b i))
  | ⟨4, _⟩ =>
    have e : idx_main_v34 (ix3 b i (0 : Fin 1)) = ix2 b i := funext fun a => by match a with | ⟨0, _⟩ => rfl | ⟨1, _⟩ => rfl
    exact ((val_main_v34_apply x0 (ix3 b i 0)).trans (by rw [e])).trans (deg4_at x0 (ix2 b i))
  | ⟨5, _⟩ =>
    have e : idx_main_v35 (ix3 b i (0 : Fin 1)) = ix2 b i := funext fun a => by match a with | ⟨0, _⟩ => rfl | ⟨1, _⟩ => rfl
    exact ((val_main_v35_apply x0 (ix3 b i 0)).trans (by rw [e])).trans (deg5_at x0 (ix2 b i))
  | ⟨6, _⟩ =>
    have e : idx_main_v36 (ix3 b i (0 : Fin 1)) = ix2 b i := funext fun a => by match a with | ⟨0, _⟩ => rfl | ⟨1, _⟩ => rfl
    exact ((val_main_v36_apply x0 (ix3 b i 0)).trans (by rw [e])).trans (deg6_at x0 (ix2 b i))
  | ⟨7, _⟩ =>
    have e : idx_main_v37 (ix3 b i (0 : Fin 1)) = ix2 b i := funext fun a => by match a with | ⟨0, _⟩ => rfl | ⟨1, _⟩ => rfl
    exact ((val_main_v37_apply x0 (ix3 b i 0)).trans (by rw [e])).trans (deg7_at x0 (ix2 b i))
  | ⟨8, _⟩ =>
    have e : idx_main_v38 (ix3 b i (0 : Fin 1)) = ix2 b i := funext fun a => by match a with | ⟨0, _⟩ => rfl | ⟨1, _⟩ => rfl
    exact ((val_main_v38_apply x0 (ix3 b i 0)).trans (by rw [e])).trans (deg8_at x0 (ix2 b i))

/-! ## The weights, flattened and transposed -/

/-- Row i·9 + k, column o of the right operand is c_basis[o, i, k] · c_act[o, i]. -/
theorem weights_at (x1 : (⟨S256x256x9, .f32⟩ : BufTy).Contents (Elt Ideal)) (x2 : (⟨S256x256, .f32⟩ : BufTy).Contents (Elt Ideal))
    (o i : Fin 256) (k : Fin 9) (j : S2304x256.Idx) (hj0 : (j 0).val = i.val * 9 + k.val) (hj1 : (j 1).val = o.val) :
    val_main_v45 (F := Ideal) x1 x2 j = x1 (ix3 o i k) * x2 (ix2 o i) := by
  rw [val_main_v45_apply, val_main_v44_apply, val_main_v43_apply, val_main_v42_apply, val_main_v41_apply]
  have hi := i.isLt; have hk := k.isLt; have ho := o.isLt
  have e1 : idx_main_v44 (idx_main_v45 j) = ix3 o i k := funext fun a => Fin.ext (by
    match a with
    | ⟨0, _⟩ => show ((j 1).val * 2304 + (j 0).val) / 2304 = o.val; omega
    | ⟨1, _⟩ => show ((j 1).val * 2304 + (j 0).val) / 9 % 256 = i.val; omega
    | ⟨2, _⟩ => show ((j 1).val * 2304 + (j 0).val) % 9 = k.val; omega)
  have e2 : idx_main_v41 (idx_main_v42 (ix3 o i k)) = ix2 o i := funext fun a => by
    match a with
    | ⟨0, _⟩ => rfl
    | ⟨1, _⟩ => rfl
  rw [e1, e2]
  rfl

/-! ## The contraction, re-indexed -/

/-- THE REFERENCE'S RESULT is `Cheb.result` of its three arguments. -/
theorem value_eq (x0 : (⟨S32768x256, .f32⟩ : BufTy).Contents (Elt Ideal)) (x1 : (⟨S256x256x9, .f32⟩ : BufTy).Contents (Elt Ideal))
    (x2 : (⟨S256x256, .f32⟩ : BufTy).Contents (Elt Ideal)) :
    val_main_v46 (F := Ideal) x0 x1 x2 = result x0 x1 x2 := by
  funext j
  obtain ⟨b, o, rfl⟩ : ∃ (b : Fin 32768) (o : Fin 256), j = ix2 b o := ⟨j 0, j 1, eq_ix2 j⟩
  rw [val_main_v46_apply, sum_flat]
  unfold result
  refine Finset.sum_congr rfl fun k _ => Finset.sum_congr rfl fun i _ => ?_
  have hl : val_main_v40 (F := Ideal) x0 (lidx_main_v46 (ix2 b o) (flatEquiv (i, k))) = cheb k (Ideal.tanh (x0 (ix2 b i))) := by
    rw [val_main_v40_apply]
    have hb := b.isLt; have hi := i.isLt; have hk := k.isLt
    have e : idx_main_v40 (lidx_main_v46 (ix2 b o) (flatEquiv (i, k))) = ix3 b i k := funext fun a => Fin.ext (by
      match a with
      | ⟨0, _⟩ => show (b.val * 2304 + (i.val * 9 + k.val)) / 2304 = b.val; omega
      | ⟨1, _⟩ => show (b.val * 2304 + (i.val * 9 + k.val)) / 9 % 256 = i.val; omega
      | ⟨2, _⟩ => show (b.val * 2304 + (i.val * 9 + k.val)) % 9 = k.val; omega)
    rw [e]
    exact stacked_at x0 b i k
  have hr := weights_at x1 x2 o i k (ridx_main_v46 (ix2 b o) (flatEquiv (i, k))) rfl rfl
  rw [hl, hr]

end Cert.Cheb.Reference

end
-- ==== Proof.ChebKernelBody.lean ====
/-
  What the kernel body stores, entry by entry.

  On a block of 2048 rows `x` and the whole weight slab `w[k, i, o]`, the body forms t = tanh x, the nine polynomials
  of t by the recurrence, and adds up nine matrix products T_k(t) · w[k] in the order k = 0 … 8. A matrix product into
  a zero accumulator is, at the exact values, the plain sum over the contracted feature axis, and the changes of float
  format in front of each product are the identity there; so the stored entry (p, o) is the sum over the degrees and
  over the features of T_k (tanh x[p, i]) · w[k, i, o]: `Cheb.resultOfSlab` of the block.
-/
import proofs.«129841_j7404523619230_1_alg».proof.Proof.Gen.KernelIdeal.Frame
import proofs.«129841_j7404523619230_1_alg».proof.Proof.ChebSpec
import Idealize.ShloMosaic.PureOps.Ideal.Laws
import Idealize.ShloMosaic.Lib.ValueIdx
import Idealize.ShloMosaic.Lib.Pipeline.Value

noncomputable section

open scoped BigOperators

namespace Cert.Cheb.Kernel

open Cert.KernelIdeal Cert.KernelIdeal.Gen Cert.Cheb Idealize.ShloMosaic Idealize.ShloMosaic.ValueIdx

/-! ## The polynomial blocks, entry by entry -/

section Degrees
variable (v0 : Vec Ideal S2048x256 .f32) (i : S2048x256.Idx)

theorem tanh_at : k0_pay2 v0 i = Ideal.tanh (v0 i) := rfl
theorem deg0_at : k0_pay3 (F := Ideal) i = one := rfl
theorem deg2_at : k0_pay4 v0 i = T2 (Ideal.tanh (v0 i)) := rfl
theorem deg3_at : k0_pay5 v0 i = T3 (Ideal.tanh (v0 i)) := rfl
theorem deg4_at : k0_pay7 v0 i = T4 (Ideal.tanh (v0 i)) := rfl
theorem deg5_at : k0_pay9 (k0_pay2 v0) (k0_pay5 v0) (k0_pay7 v0) i = T5 (Ideal.tanh (v0 i)) := rfl
theorem deg6_at : k0_pay10 (k0_pay2 v0) (k0_pay5 v0) (k0_pay7 v0) i = T6 (Ideal.tanh (v0 i)) := rfl
theorem deg7_at : k0_pay11 (k0_pay2 v0) (k0_pay5 v0) (k0_pay7 v0) i = T7 (Ideal.tanh (v0 i)) := rfl
theorem deg8_at : k0_pay13 (k0_pay2 v0) (k0_pay5 v0) (k0_pay7 v0) i = T8 (Ideal.tanh (v0 i)) := rfl

end Degrees

/-! ## One matrix product at an entry -/

theorem lhs_axis0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_axis1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
theorem rhs_axis0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
theorem rhs_axis1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A [2048, 256] × [256, 256] product into the zero accumulator, at entry (p, o): the sum over the contracted
    feature `i` of left[p, i] · right[i, o]. -/
theorem product_at (l : FVec Ideal S2048x256 .bf16) (r : FVec Ideal S256x256 .bf16) (p : Fin 2048) (o : Fin 256) :
    matmul dot_S2048x256_S256x256_S2048x256_1_0_0_1_n_n none l r (constant S2048x256 .f32 0x00000000#32) (ix2 p o)
      = ∑ i : Fin 256, l (ix2 p i) * r (ix2 i o) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p o) ((ValueIdx.contrEquiv1 dot_S2048x256_S256x256_S2048x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x256_S2048x256_1_0_0_1_n_n.rhsIdx (ix2 p o) ((ValueIdx.contrEquiv1 dot_S2048x256_S256x256_S2048x256_1_0_0_1_n_n 256 rfl rfl).symm k) = ix2 k o := funext fun a => Fin.ext (by
    match a with
    | ⟨0, _⟩ => exact (rhs_axis0 _ _).trans hk
    | ⟨1, _⟩ => exact rhs_axis1 _ _)
  rw [el, er]

/-! ## One degree's weight matrix: a unit slice of the slab with its leading axis dropped -/

/-- The [256, 256] matrix the body loads for degree `n` — rows n … n of the slab, the unit axis dropped — at (i, o)
    is the slab at (n, i, o). -/
theorem weight_at (x1 : Vec Ideal S9x256x256 .bf16) (n : Nat) (hn : n < 9)
    (inb : ∀ a, (![n, 0, 0] : Fin 3 → Nat) a + S1x256x256.size a ≤ S9x256x256.size a) (i o : Fin 256) :
    shapeCast S256x256 (View.ld x1 (Rect.unit (s := S9x256x256) ![n, 0, 0] S1x256x256.size inb)) shapeCasts_S1x256x256_S256x256 (ix2 i o)
      = x1 (ix3 ⟨n, hn⟩ i o) := by
  refine (shapeCast_apply _ shapeCasts_S1x256x256_S256x256 (ix2 i o) (ix3 (0 : Fin 1) i o) ?_).trans ?_
  · rw [Shape.rowMajor_val_three, Shape.rowMajor_val_two]
    show (0 * 256 + i.val) * 256 + o.val = i.val * 256 + o.val
    omega
  · show x1 ((Rect.unit (s := S9x256x256) ![n, 0, 0] S1x256x256.size inb).idx (ix3 (0 : Fin 1) i o)) = x1 (ix3 ⟨n, hn⟩ i o)
    refine congrArg x1 (funext fun a => Fin.ext ?_)
    match a with
    | ⟨0, _⟩ => show n + 1 * 0 = n; omega
    | ⟨1, _⟩ => show 0 + 1 * i.val = i.val; omega
    | ⟨2, _⟩ => show 0 + 1 * o.val = o.val; omega

/-! ## One degree's term, and the nine of them added up -/

/-- The product of a polynomial block with its degree's weight matrix, at entry (p, o), once the block's row p is known. -/
theorem term_at (x1 : Vec Ideal S9x256x256 .bf16) (l : FVec Ideal S2048x256 .bf16) (n : Nat) (hn : n < 9)
    (inb : ∀ a, (![n, 0, 0] : Fin 3 → Nat) a + S1x256x256.size a ≤ S9x256x256.size a)
    (f : Fin 256 → EReal) (p : Fin 2048) (o : Fin 256) (hl : ∀ i : Fin 256, l (ix2 p i) = f i) :
    matmul dot_S2048x256_S256x256_S2048x256_1_0_0_1_n_n none l
        (shapeCast S256x256 (View.ld x1 (Rect.unit (s := S9x256x256) ![n, 0, 0] S1x256x256.size inb)) shapeCasts_S1x256x256_S256x256 : FVec Ideal S256x256 .bf16)
        (constant S2048x256 .f32 0x00000000#32) (ix2 p o)
      = ∑ i : Fin 256, f i * x1 (ix3 ⟨n, hn⟩ i o) := by
  rw [product_at]
  exact Finset.sum_congr rfl fun i _ => by rw [hl i, weight_at x1 n hn inb i o]

theorem zero_offsets : (![0, 0] : Fin 2 → Nat) = fun _ => 0 := funext fun a => by fin_cases a <;> rfl

/-- THE STORED BLOCK: what the body leaves in the output buffer, as a function of the row block and the slab. -/
theorem stored_eq (x0 : Vec Ideal S2048x256 .f32) (x1 : Vec Ideal S9x256x256 .bf16) :
    out0_2 x0 x1 = resultOfSlab x0 x1 := by
  unfold out0_2
  rw [View.canon_unit_zero zero_offsets]
  simp only [View.ld_unit_zero (S := S2048x256) zero_offsets]
  funext j
  obtain ⟨p, o, rfl⟩ : ∃ (p : Fin 2048) (o : Fin 256), j = ix2 p o := ⟨j 0, j 1, eq_ix2 j⟩
  unfold k0_pay1 k0_pay12 k0_pay6 k0_pay8 k0_pay14
  dsimp only
  simp only [addf_apply]
  rw [term_at x1 (truncf .bf16 (k0_pay3 (F := Ideal)) bitsLt_bf16_f32) 0 (by omega) inb_S9x256x256_S1x256x256_0_0_0 (fun i => cheb 0 (Ideal.tanh (x0 (ix2 p i)))) p o (fun _ => rfl),
    term_at x1 (truncf .bf16 (k0_pay2 x0) bitsLt_bf16_f32) 1 (by omega) inb_S9x256x256_S1x256x256_1_0_0 (fun i => cheb 1 (Ideal.tanh (x0 (ix2 p i)))) p o (fun _ => rfl),
    term_at x1 (truncf .bf16 (k0_pay4 x0) bitsLt_bf16_f32) 2 (by omega) inb_S9x256x256_S1x256x256_2_0_0 (fun i => cheb 2 (Ideal.tanh (x0 (ix2 p i)))) p o (fun _ => rfl),
    term_at x1 (truncf .bf16 (k0_pay5 x0) bitsLt_bf16_f32) 3 (by omega) inb_S9x256x256_S1x256x256_3_0_0 (fun i => cheb 3 (Ideal.tanh (x0 (ix2 p i)))) p o (fun _ => rfl),
    term_at x1 (truncf .bf16 (k0_pay7 x0) bitsLt_bf16_f32) 4 (by omega) inb_S9x256x256_S1x256x256_4_0_0 (fun i => cheb 4 (Ideal.tanh (x0 (ix2 p i)))) p o (fun _ => rfl),
    term_at x1 (truncf .bf16 (k0_pay9 (k0_pay2 x0) (k0_pay5 x0) (k0_pay7 x0)) bitsLt_bf16_f32) 5 (by omega) inb_S9x256x256_S1x256x256_5_0_0 (fun i => cheb 5 (Ideal.tanh (x0 (ix2 p i)))) p o (fun _ => rfl),
    term_at x1 (truncf .bf16 (k0_pay10 (k0_pay2 x0) (k0_pay5 x0) (k0_pay7 x0)) bitsLt_bf16_f32) 6 (by omega) inb_S9x256x256_S1x256x256_6_0_0 (fun i => cheb 6 (Ideal.tanh (x0 (ix2 p i)))) p o (fun _ => rfl),
    term_at x1 (truncf .bf16 (k0_pay11 (k0_pay2 x0) (k0_pay5 x0) (k0_pay7 x0)) bitsLt_bf16_f32) 7 (by omega) inb_S9x256x256_S1x256x256_7_0_0 (fun i => cheb 7 (Ideal.tanh (x0 (ix2 p i)))) p o (fun _ => rfl),
    term_at x1 (k0_pay13 (k0_pay2 x0) (k0_pay5 x0) (k0_pay7 x0)) 8 (by omega) inb_S9x256x256_S1x256x256_8_0_0 (fun i => cheb 8 (Ideal.tanh (x0 (ix2 p i)))) p o (fun _ => rfl)]
  unfold resultOfSlab
  rw [sum_nine]
  rfl

end Cert.Cheb.Kernel

end
-- ==== Proof.ChebKernelArray.lean ====
/-
  From the blocks the kernel writes to the whole output array.

  Grid point t reads rows t·2048 … t·2048 + 2047 of x and the whole weight slab, and writes the same rows of the
  output; the sixteen points' row blocks tile the 32768 rows. So the array after the run is, row by row, the stored
  block's function of the whole arrays. The slab itself is prepared before the region: entry (k, i, o) is
  c_basis[o, i, k] · c_act[o, i] (a broadcast, a product, a transposition, and a change of format that is the identity
  at the exact values). Together: the kernel's result array is `Cheb.result` of the three arguments.
-/
import proofs.«129841_j7404523619230_1_alg».proof.Proof.Gen.KernelIdeal.Value
import proofs.«129841_j7404523619230_1_alg».proof.Proof.ChebKernelBody
import Idealize.ShloMosaic.Lib.StableHlo.Run

noncomputable section

open scoped BigOperators

namespace Cert.Cheb.KernelArray

open Cert.KernelIdeal Cert.KernelIdeal.Gen Cert.Cheb Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## The arrays, named at their literal types -/

/-- The batch of rows as launched, … -/
abbrev xArg (c : Dev nD) : FVec Ideal S32768x256 .f32 := m ((c : Thread nD τ).loc main_arg0)
/-- … the basis coefficients, … -/
abbrev basisArg (c : Dev nD) : FVec Ideal S256x256x9 .f32 := m ((c : Thread nD τ).loc main_arg1)
/-- … and the activation coefficients. -/
abbrev actArg (c : Dev nD) : FVec Ideal S256x256 .f32 := m ((c : Thread nD τ).loc main_arg2)
/-- The rows as the region finds them, … -/
abbrev xArr (c : Dev nD) : FVec Ideal S32768x256 .f32 := V m c main_arg0
/-- … and the weight slab the host operations prepared. -/
abbrev slabArr (c : Dev nD) : FVec Ideal S9x256x256 .bf16 := V m c main_v4

/-- The region finds the rows as launched. -/
theorem xArr_eq (c : Dev nD) : xArr m c = xArg m c := V_main_arg0 m c

/-! ## The weight slab as the region finds it -/

/-- The slab is the host operations' term of the two weight arguments. -/
theorem slab_eq (c : Dev nD) :
    slabArr m c
      = (truncf .bf16 (transpose S9x256x256 [2, 1, 0]
          (mulf (basisArg m c)
            (broadcastInDim S256x256x9 ![0, 1, 2] bcast_S256x256x1_S256x256x9_0_1_2
              (broadcastInDim S256x256x1 ![0, 1] bcast_S256x256_S256x256x1_0_1 (actArg m c))))
          transposes_S256x256x9_S9x256x256_2_1_0) bitsLt_bf16_f32) := by
  show V m c main_v4 = _
  dsimp only [Gen.V, Gen.hostOps0]
  after_results

/-- Entry (k, i, o) of the slab is c_basis[o, i, k] · c_act[o, i]. -/
theorem slab_at (c : Dev nD) (k : Fin 9) (i o : Fin 256) :
    slabArr m c (ix3 k i o) = basisArg m c (ix3 o i k) * actArg m c (ix2 o i) := by
  rw [slab_eq]
  show transpose S9x256x256 [2, 1, 0]
      (mulf (basisArg m c)
        (broadcastInDim S256x256x9 ![0, 1, 2] bcast_S256x256x1_S256x256x9_0_1_2
          (broadcastInDim S256x256x1 ![0, 1] bcast_S256x256_S256x256x1_0_1 (actArg m c))))
      transposes_S256x256x9_S9x256x256_2_1_0 (ix3 k i o) = _
  refine (transpose_apply [2, 1, 0] _ transposes_S256x256x9_S9x256x256_2_1_0 (ix3 k i o) (ix3 o i k) (fun b => match b with
    | ⟨0, _⟩ => rfl
    | ⟨1, _⟩ => rfl
    | ⟨2, _⟩ => rfl)).trans ?_
  refine congrArg (basisArg m c (ix3 o i k) * ·) ?_
  refine (broadcastInDim_apply _ bcast_S256x256x1_S256x256x9_0_1_2 _ (ix3 o i k) (ix3 o i (0 : Fin 1)) (fun a => match a with
    | ⟨0, _⟩ => by show o.val = if (256 : Nat) = 1 then 0 else o.val; rw [if_neg (by decide)]
    | ⟨1, _⟩ => by show i.val = if (256 : Nat) = 1 then 0 else i.val; rw [if_neg (by decide)]
    | ⟨2, _⟩ => by show 0 = if (1 : Nat) = 1 then 0 else k.val; rw [if_pos rfl])).trans ?_
  exact broadcastInDim_apply _ bcast_S256x256_S256x256x1_0_1 _ (ix3 o i (0 : Fin 1)) (ix2 o i) (fun a => match a with
    | ⟨0, _⟩ => by show o.val = if (256 : Nat) = 1 then 0 else o.val; rw [if_neg (by decide)]
    | ⟨1, _⟩ => by show i.val = if (256 : Nat) = 1 then 0 else i.val; rw [if_neg (by decide)])

/-! ## The blocks at a grid point -/

/-- The three index maps over the sixteen points: the row blocks of x and of the output are the point's own, every
    other block index is zero. -/
theorem block_indices : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row p of point t's block is row t·2048 + p of the array. -/
def row (t : Fin cfg0.N) (p : Fin 2048) : Fin 32768 :=
  ⟨t.val * 2048 + p.val, by have ht : t.val < 16 := t.isLt; have := p.isLt; omega⟩

/-- Where entry (p, i) of point t's block of x sits in the array, … -/
theorem emb_x (t : Fin cfg0.N) (p : Fin 2048) (i : Fin 256) :
    ((cfg0.win 0).blk t).view.emb (ix2 p i) = ix2 (row t p) i := by
  obtain ⟨e00, e01, -⟩ := block_indices t
  funext a; apply Fin.ext
  match a with
  | ⟨0, _⟩ => show win0_0.index t (0 : Fin 2) * 2048 + 1 * p.val = t.val * 2048 + p.val; rw [e00]; omega
  | ⟨1, _⟩ => show win0_0.index t (1 : Fin 2) * 256 + 1 * i.val = i.val; rw [e01]; omega

/-- … entry (k, i, o) of its (whole) block of the slab, … -/
theorem emb_slab (t : Fin cfg0.N) (k : Fin 9) (i o : Fin 256) :
    ((cfg0.win 1).blk t).view.emb (ix3 k i o) = ix3 k i o := by
  obtain ⟨-, -, e10, e11, e12, -⟩ := block_indices t
  funext a; apply Fin.ext
  match a with
  | ⟨0, _⟩ => show win0_1.index t (0 : Fin 3) * 9 + 1 * k.val = k.val; rw [e10]; omega
  | ⟨1, _⟩ => show win0_1.index t (1 : Fin 3) * 256 + 1 * i.val = i.val; rw [e11]; omega
  | ⟨2, _⟩ => show win0_1.index t (2 : Fin 3) * 256 + 1 * o.val = o.val; rw [e12]; omega

/-- … and entry (p, o) of its block of the output. -/
theorem emb_out (t : Fin cfg0.N) (p : Fin 2048) (o : Fin 256) :
    ((cfg0.win 2).blk t).view.emb (ix2 p o) = ix2 (row t p) o := by
  obtain ⟨-, -, -, -, -, e20, e21⟩ := block_indices t
  funext a; apply Fin.ext
  match a with
  | ⟨0, _⟩ => show win0_2.index t (0 : Fin 2) * 2048 + 1 * p.val = t.val * 2048 + p.val; rw [e20]; omega
  | ⟨1, _⟩ => show win0_2.index t (1 : Fin 2) * 256 + 1 * o.val = o.val; rw [e21]; omega

/-- WHAT POINT `t` WRITES BACK is block `t` of the stored function of the whole arrays. -/
theorem flushed_eq (c : Dev nD) (t : Fin cfg0.N) :
    (dats m 0 c).flushed 2 t
      = ((cfg0.win 2).blk t).view.read (Elt Ideal) (resultOfSlab (xArr m c) (slabArr m c)) := by
  refine ((Cert.KernelIdeal.Value.flushed2 m c t).trans
    (congrArg ((cfg0.win 2).cut (grid0.coords t)) (Kernel.stored_eq (iblk m c 0 t) (iblk m c 1 t)))).trans ?_
  funext j
  obtain ⟨p, o, rfl⟩ : ∃ (p : Fin 2048) (o : Fin 256), j = ix2 p o := ⟨j 0, j 1, eq_ix2 j⟩
  show resultOfSlab (iblk m c 0 t) (iblk m c 1 t) (ix2 p o)
    = resultOfSlab (xArr m c) (slabArr m c) (((cfg0.win 2).blk t).view.emb (ix2 p o))
  rw [emb_out t p o]
  unfold resultOfSlab
  refine Finset.sum_congr rfl fun k _ => Finset.sum_congr rfl fun i _ => ?_
  show cheb k (Ideal.tanh (xArr m c (((cfg0.win 0).blk t).view.emb (ix2 p i)))) * slabArr m c (((cfg0.win 1).blk t).view.emb (ix3 k i o))
    = cheb k (Ideal.tanh (xArr m c (ix2 (row t p) i))) * slabArr m c (ix3 k i o)
  rw [emb_x t p i, emb_slab t k i o]

/-! ## The sixteen row blocks tile the output -/

/-- An index of the output is in point `t`'s block iff each coordinate is in the block's range on its axis. -/
theorem mem_out_block (t : Fin cfg0.N) (i : S32768x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v5).slice (win0_2.rect t)).set ↔ _
  rw [View.set_slice_whole, Rect.mem_set_unit]
  exact Iff.rfl

/-- Row r lies in the block of point r / 2048, which writes back. -/
theorem covered (i : S32768x256.Idx) :
    ∃ t : Fin cfg0.N, (cfg0.win 2).flush t = true ∧ i ∈ ((cfg0.win 2).blk t).view.set := by
  have hi0 : (i 0).val < 32768 := (i 0).isLt
  have hi1 : (i 1).val < 256 := (i 1).isLt
  have ht : (i 0).val / 2048 < 16 := by omega
  obtain ⟨-, -, -, -, -, e20, e21⟩ := block_indices ⟨(i 0).val / 2048, ht⟩
  refine ⟨⟨(i 0).val / 2048, ht⟩, flush0_2 _, ?_⟩
  rw [mem_out_block]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e20]
    show (i 0).val / 2048 * 2048 ≤ (i 0).val ∧ (i 0).val < (i 0).val / 2048 * 2048 + 2048
    omega
  | ⟨1, _⟩ =>
    show win0_2.index ⟨(i 0).val / 2048, ht⟩ (1 : Fin 2) * 256 ≤ (i 1).val
      ∧ (i 1).val < win0_2.index ⟨(i 0).val / 2048, ht⟩ (1 : Fin 2) * 256 + 256
    rw [e21]
    omega

/-! ## The output array after the run -/

/-- THE ARRAY after the run is `Cheb.result` of the three arguments as launched. -/
theorem final (c : Dev nD) : (dats m 0 c).arrAt 2 cfg0.N = result (xArg m c) (basisArg m c) (actArg m c) := by
  rw [(dats m 0 c).arrAt_eq_of_cover 2 (resultOfSlab (xArr m c) (slabArr m c)) (fun t _ => flushed_eq m c t) covered,
    xArr_eq]
  exact resultOfSlab_eq_result _ _ _ _ (slab_at m c)

/-- The kernel's run, read: the result array at `Cheb.result` of the arguments, the arguments unchanged. -/
theorem run : θ_run defs (onTc (τ := τ) (main (F := Ideal))) ⟨m, fun _ => 0, ρ⟩ fun r => ∀ c : Dev nD,
      r.2.mem ((c : Thread nD τ).loc main_v5) = result (xArg m c) (basisArg m c) (actArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Cheb.KernelArray

end
-- ==== Proof.lean ====
/-
  Degree-8 Chebyshev expansion of tanh x against a weight tensor, computed two ways.

  With t = tanh x[b, i] and T₀ = 1, T₁ = t, T_k = (2·t)·T_{k-1} − T_{k-2}, both programs compute

      out[b, o] = ∑ k < 9, ∑ i < 256,  T_k(t) · (c_basis[o, i, k] · c_act[o, i])

  (`Cheb.result`, Proof/ChebSpec.lean). The kernel takes it degree by degree — nine [2048, 256] × [256, 256] matrix
  products per block of 2048 rows, added in the order k = 0 … 8, the weights laid out degree-major beforehand — and its
  sixteen row blocks tile the output (Proof/ChebKernelBody.lean, Proof/ChebKernelArray.lean). The reference stacks
  the nine polynomial arrays along a last axis, flattens (i, k) to the position i·9 + k on both operands, and contracts
  once over the 2304 positions (Proof/ChebReference.lean). Re-indexing that contraction by the pair (i, k) and
  exchanging the two sums makes the two equal on all extended reals: only commutativity and associativity of the
  sum are used, so the precondition is never opened. The idealization rewrote nothing, so `preserves` is trivial;
  the three frames are the programs' runs with the values dropped.
-/
import proofs.«129841_j7404523619230_1_alg».proof.Defs
import proofs.«129841_j7404523619230_1_alg».proof.Proof.Gen.Kernel
import proofs.«129841_j7404523619230_1_alg».proof.Proof.Gen.Kernel.Skeleton
import proofs.«129841_j7404523619230_1_alg».proof.Proof.Gen.Kernel.Launch
import proofs.«129841_j7404523619230_1_alg».proof.Proof.Gen.Kernel.Points
import proofs.«129841_j7404523619230_1_alg».proof.Proof.Gen.Kernel.Frame
import proofs.«129841_j7404523619230_1_alg».proof.Proof.Gen.KernelIdeal
import proofs.«129841_j7404523619230_1_alg».proof.Proof.Gen.KernelIdeal.Skeleton
import proofs.«129841_j7404523619230_1_alg».proof.Proof.Gen.KernelIdeal.Launch
import proofs.«129841_j7404523619230_1_alg».proof.Proof.Gen.KernelIdeal.Points
import proofs.«129841_j7404523619230_1_alg».proof.Proof.Gen.KernelIdeal.Frame
import proofs.«129841_j7404523619230_1_alg».proof.Proof.Gen.ReferenceIdeal
import proofs.«129841_j7404523619230_1_alg».proof.Proof.Gen.Pre_finite_inputs
import proofs.«129841_j7404523619230_1_alg».proof.Proof.Gen.KernelIdeal.Value
import proofs.«129841_j7404523619230_1_alg».proof.Proof.Gen.ReferenceIdeal.Run
import proofs.«129841_j7404523619230_1_alg».proof.Proof.Gen.ReferenceIdeal.Read
import proofs.«129841_j7404523619230_1_alg».proof.Proof.ChebSpec
import proofs.«129841_j7404523619230_1_alg».proof.Proof.ChebReference
import proofs.«129841_j7404523619230_1_alg».proof.Proof.ChebKernelBody
import proofs.«129841_j7404523619230_1_alg».proof.Proof.ChebKernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's output array and the reference's result are both `Cheb.result` of them. -/
theorem algebraic : Cert.algebraic_KernelIdeal_ReferenceIdeal := by
  intro m ρ m' ρ' _ hagree
  refine ⟨fun c => Cert.Cheb.result (Cert.Cheb.KernelArray.xArg m c) (Cert.Cheb.KernelArray.basisArg m c)
    (Cert.Cheb.KernelArray.actArg m c), Cert.Cheb.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.Cheb.Reference.value_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
